-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S9x64 1) : IVec S_ 1 :=
  let main_c_5 : IVec S_ 1 := constantI S_ 1 1#1
  let main_v17 : IVec S_ 1 := (fun x v => Host.reduce IntOp.andi x v reducesTo_S9x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S100000x9 .f32) (main_arg1 : IVec S2x1600000 32) (main_arg2 : FVec F S9x64 .f32) (main_arg3 : FVec F S64 .f32) (main_arg4 : FVec F S9x64 .f32) (main_arg5 : FVec F S64x32 .f32) (main_arg6 : FVec F S32 .f32) (main_arg7 : FVec F S64x32 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S9x64 .f32 := Host.absf main_arg2
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S9x64 .f32 := Host.absf main_arg4
  let main_cst_4 : FVec F S_ .f32 := constant S_ .f32 0x7F800000#32
  let main_v15 : FVec F S9x64 .f32 := broadcastInDim S9x64 ![] bcast_S_S9x64 main_cst_4
  let main_v16 : IVec S9x64 1 := cmpf .olt main_v14 main_v15
  fn_part1 (F := F) main_arg5 main_arg6 main_arg7 main_v13 main_v16
-- ==== Kernel.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x9 : Shape := ⟨2, ![1600000, 9]⟩
abbrev S1x64 : Shape := ⟨2, ![1, 64]⟩
abbrev S100000x64 : Shape := ⟨2, ![100000, 64]⟩
abbrev S5000x9 : Shape := ⟨2, ![5000, 9]⟩
abbrev S5000x64 : Shape := ⟨2, ![5000, 64]⟩
abbrev S1600000x64 : Shape := ⟨2, ![1600000, 64]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 59
  | .vmem => 18
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S9x64, .f32⟩
  | .hbm, ⟨3, _⟩ => ⟨S64, .f32⟩
  | .hbm, ⟨4, _⟩ => ⟨S9x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x9, .f32⟩
  | .hbm, ⟨34, _⟩ => ⟨S_, .f32⟩
  | .hbm, ⟨35, _⟩ => ⟨S100000x9, .f32⟩
  | .hbm, ⟨36, _⟩ => ⟨S1600000x1, .i32⟩
  | .hbm, ⟨37, _⟩ => ⟨S100000x9, .f32⟩
  | .hbm, ⟨38, _⟩ => ⟨S100000x9, .f32⟩
  | .hbm, ⟨39, _⟩ => ⟨S100000x9, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x32, .f32⟩
  | .hbm, ⟨58, _⟩ => ⟨S100000x32, .f32⟩
  | .local _ .vmem, ⟨0, _⟩ => ⟨S5000x9, .f32⟩
  | .local _ .vmem, ⟨1, _⟩ => ⟨S5000x9, .f32⟩
  | .local _ .vmem, ⟨2, _⟩ => ⟨S5000x9, .f32⟩
  | .local _ .vmem, ⟨3, _⟩ => ⟨S5000x9, .f32⟩
  | .local _ .vmem, ⟨4, _⟩ => ⟨S9x64, .f32⟩
  | .local _ .vmem, ⟨5, _⟩ => ⟨S1x64, .f32⟩
  | .local _ .vmem, ⟨6, _⟩ => ⟨S9x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S5000x32, .f32⟩
  | .local _ .vmem, ⟨17, _⟩ => ⟨S5000x32, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x9 : S_.BroadcastsInDim S100000x9 (![] : Fin 0 → Fin S100000x9.rank)
  bcast_S100000x1_S100000x9_0_1 : S100000x1.BroadcastsInDim S100000x9 (![0, 1] : Fin 2 → Fin S100000x9.rank)
  shapeCasts_S64_S1x64 : S64.ShapeCasts S1x64
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1600000x1_S1600000_n_0_0_1_wf : ScatterDims.WF S100000 S1600000x1 S1600000 [] [0] [0] 1
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S5000x9_S9x64_S5000x64_1_0_0_1_n_n_wf : DotDims.WF S5000x9 S9x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S100000x9.size a
  hwx0_0 : ∀ i : grid0.Coords, EltTy.bits .f32 = 32 ∨ (Rect.block (s := S100000x9) S5000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x9.size a ≤ S100000x9.size a
  hwx0_1 : ∀ i : grid0.Coords, EltTy.bits .f32 = 32 ∨ (Rect.block (s := S100000x9) S5000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x64.size a ≤ S9x64.size a
  hwx0_4 : ∀ i : grid0.Coords, EltTy.bits .f32 = 32 ∨ (Rect.block (s := S9x64) S9x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S5000x9_S9x64_S5000x64_1_0_0_1_n_n : DotDims S5000x9 S9x64 S5000x64 where
  lhsContracting := [1]
  rhsContracting := [0]
  lhsNonContracting := [0]
  rhsNonContracting := [1]
  lhsBatch := []
  rhsBatch := []
  wf := dot_S5000x9_S9x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v24) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S9x64 : Shape := ⟨2, ![9, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S9x64, .f32⟩
  | .hbm, ⟨3, _⟩ => ⟨S64, .f32⟩
  | .hbm, ⟨4, _⟩ => ⟨S9x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x9, .f32⟩
  | .hbm, ⟨21, _⟩ => ⟨S_, .f32⟩
  | .hbm, ⟨22, _⟩ => ⟨S100000x9, .f32⟩
  | .hbm, ⟨23, _⟩ => ⟨S1600000x1, .i32⟩
  | .hbm, ⟨24, _⟩ => ⟨S100000x9, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x9, .f32⟩
  | .hbm, ⟨36, _⟩ => ⟨S100000x9, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S100000x32, .f32⟩
  | .hbm, ⟨80, _⟩ => ⟨S100000x32, .f32⟩
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x9 : S_.BroadcastsInDim S100000x9 (![] : Fin 0 → Fin S100000x9.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x9_0_1 : S100000x1.BroadcastsInDim S100000x9 (![0, 1] : Fin 2 → Fin S100000x9.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  scatter_S100000_S1600000x1_S1600000_n_0_0_1_wf : ScatterDims.WF S100000 S1600000x1 S1600000 [] [0] [0] 1
  dot_S100000x9_S9x64_S100000x64_1_0_0_1_n_n_wf : DotDims.WF S100000x9 S9x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«107614_j32787780338275_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.LibReal.lean ====
/-
  Which array operations keep every entry a real number.

  At the ideal instance a float is an extended real: a real number, or one of the two infinities.  The
  arithmetic of the extended reals is the reals' arithmetic only away from the infinities, so a statement about
  a network's value has to know that no infinity arises on the way.  This file says of each array operation
  that it maps arrays of real entries to arrays of real entries: the pointwise sum, difference, product and
  maximum; the choice between two arrays; every re-indexing (repeating along new axes, recasting the shape,
  cutting a block out, taking rows by an index array); a constant whose bit pattern denotes a real; the
  quotient by nonzero reals; the reciprocal square root of positive reals; a sum along an axis; a matrix
  product; and the accumulation of rows into a table.  Each statement is generic in the shapes.
-/
import Idealize.ShloMosaic.PureOps.Ideal
import Idealize.ShloMosaic.PureOps.Ideal.Laws

noncomputable section

namespace Cert.LibReal

open Idealize.ShloMosaic

/-- Every entry of the array is a real number: neither infinity. -/
def AllReal {S : Shape} (a : S.Idx → EReal) : Prop := ∀ i, ∃ r : ℝ, a i = (r : EReal)

/-- Every entry of the array is a nonzero real number. -/
def AllNonzero {S : Shape} (a : S.Idx → EReal) : Prop := ∀ i, ∃ r : ℝ, r ≠ 0 ∧ a i = (r : EReal)

/-- Every entry of the array is a positive real number. -/
def AllPos {S : Shape} (a : S.Idx → EReal) : Prop := ∀ i, ∃ r : ℝ, 0 < r ∧ a i = (r : EReal)

/-- Positive reals are nonzero reals. -/
theorem AllPos.allNonzero {S : Shape} {a : S.Idx → EReal} (h : AllPos a) : AllNonzero a := fun i => by
  obtain ⟨r, hr, e⟩ := h i
  exact ⟨r, hr.ne', e⟩

/-- Nonzero reals are reals. -/
theorem AllNonzero.allReal {S : Shape} {a : S.Idx → EReal} (h : AllNonzero a) : AllReal a := fun i => by
  obtain ⟨r, _, e⟩ := h i
  exact ⟨r, e⟩

/-- Positive reals are reals. -/
theorem AllPos.allReal {S : Shape} {a : S.Idx → EReal} (h : AllPos a) : AllReal a := h.allNonzero.allReal

/-- A finite sum of reals, taken in the extended reals, is the real sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals each of which is a real number is a real number. -/
theorem exists_real_sum {ι : Type} (s : Finset ι) (f : ι → EReal) (h : ∀ k ∈ s, ∃ r : ℝ, f k = (r : EReal)) :
    ∃ r : ℝ, ∑ k ∈ s, f k = (r : EReal) := by
  classical
  choose! g hg using h
  exact ⟨∑ k ∈ s, g k, by rw [coe_finset_sum]; exact Finset.sum_congr rfl hg⟩

/-! ## Pointwise operations -/

section Pointwise
variable {S : Shape} {φ : FTy}

/-- The entrywise sum of two arrays of reals is an array of reals. -/
theorem addf_allReal {a b : FVec Ideal S φ} (ha : AllReal a) (hb : AllReal b) : AllReal (addf a b) := fun i => by
  obtain ⟨r, hr⟩ := ha i
  obtain ⟨t, ht⟩ := hb i
  exact ⟨r + t, by show a i + b i = _; rw [hr, ht, EReal.coe_add]⟩

/-- The entrywise difference of two arrays of reals is an array of reals. -/
theorem subf_allReal {a b : FVec Ideal S φ} (ha : AllReal a) (hb : AllReal b) : AllReal (subf a b) := fun i => by
  obtain ⟨r, hr⟩ := ha i
  obtain ⟨t, ht⟩ := hb i
  exact ⟨r - t, by show a i - b i = _; rw [hr, ht, EReal.coe_sub]⟩

/-- The entrywise product of two arrays of reals is an array of reals. -/
theorem mulf_allReal {a b : FVec Ideal S φ} (ha : AllReal a) (hb : AllReal b) : AllReal (mulf a b) := fun i => by
  obtain ⟨r, hr⟩ := ha i
  obtain ⟨t, ht⟩ := hb i
  exact ⟨r * t, by show a i * b i = _; rw [hr, ht, EReal.coe_mul]⟩

/-- The entrywise maximum of two arrays of reals is an array of reals: at each entry it is one of the two. -/
theorem maximumf_allReal {a b : FVec Ideal S φ} (ha : AllReal a) (hb : AllReal b) : AllReal (maximumf a b) := fun i => by
  show ∃ r : ℝ, max (a i) (b i) = (r : EReal)
  rcases le_total (a i) (b i) with h | h
  · rw [max_eq_right h]; exact hb i
  · rw [max_eq_left h]; exact ha i

/-- The entrywise maximum with an array of positive reals is positive when the other array is real. -/
theorem maximumf_allPos_right {a b : FVec Ideal S φ} (ha : AllReal a) (hb : AllPos b) : AllPos (maximumf a b) := fun i => by
  show ∃ r : ℝ, 0 < r ∧ max (a i) (b i) = (r : EReal)
  obtain ⟨r, hr⟩ := ha i
  obtain ⟨t, ht0, ht⟩ := hb i
  refine ⟨max r t, lt_max_of_lt_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- Choosing entry by entry between two arrays of reals gives an array of reals. -/
theorem select_allReal (p : IVec S 1) {a b : S.Idx → EReal} (ha : AllReal a) (hb : AllReal b) :
    AllReal (select p a b) := fun i => by
  show ∃ r : ℝ, (if p i = 1 then a i else b i) = (r : EReal)
  split
  · exact ha i
  · exact hb i

/-- The entrywise quotient of an array of reals by an array of nonzero reals is an array of reals. -/
theorem divf_allReal {a b : FVec Ideal S φ} (ha : AllReal a) (hb : AllNonzero b) :
    AllReal (Host.divf (F := Ideal) a b) := fun i => by
  obtain ⟨r, hr⟩ := ha i
  obtain ⟨t, ht0, ht⟩ := hb i
  refine ⟨r * (1 / t), ?_⟩
  show Ideal.div (a i) (b i) = _
  rw [hr, ht, Ideal.div_coe ht0, EReal.coe_mul]

/-- The entrywise reciprocal square root of an array of positive reals is an array of positive reals. -/
theorem rsqrt_allPos {a : FVec Ideal S φ} (ha : AllPos a) : AllPos (Host.rsqrt (F := Ideal) a) := fun i => by
  obtain ⟨r, hr0, hr⟩ := ha i
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']

/-- The entrywise reciprocal square root of an array of positive reals is an array of reals. -/
theorem rsqrt_allReal {a : FVec Ideal S φ} (ha : AllPos a) : AllReal (Host.rsqrt (F := Ideal) a) :=
  (rsqrt_allPos ha).allReal

/-- An array of reals that are at least zero plus an array of positive reals is an array of positive reals. -/
theorem addf_allPos_of_nonneg {a b : FVec Ideal S φ} (ha : ∀ i, ∃ r : ℝ, 0 ≤ r ∧ a i = (r : EReal)) (hb : AllPos b) :
    AllPos (addf a b) := fun i => by
  obtain ⟨r, hr0, hr⟩ := ha i
  obtain ⟨t, ht0, ht⟩ := hb i
  exact ⟨r + t, by linarith, by show a i + b i = _; rw [hr, ht, EReal.coe_add]⟩

end Pointwise

/-! ## Re-indexings: every entry of the result is an entry of the operand -/

section Layout
variable {S T : Shape}

/-- Reading an array of reals through any map of indices gives an array of reals. -/
theorem comp_allReal {a : S.Idx → EReal} (ha : AllReal a) (f : T.Idx → S.Idx) : AllReal (fun j => a (f j)) :=
  fun j => ha (f j)

/-- Repeating an array of reals along new axes gives an array of reals. -/
theorem broadcastInDim_allReal (dims : Fin S.rank → Fin T.rank) (h : S.BroadcastsInDim T dims) {a : S.Idx → EReal}
    (ha : AllReal a) : AllReal (broadcastInDim T dims h a) := fun _ => ha _

/-- Repeating an array of positive reals along new axes gives an array of positive reals. -/
theorem broadcastInDim_allPos (dims : Fin S.rank → Fin T.rank) (h : S.BroadcastsInDim T dims) {a : S.Idx → EReal}
    (ha : AllPos a) : AllPos (broadcastInDim T dims h a) := fun _ => ha _

/-- Repeating an array of nonzero reals along new axes gives an array of nonzero reals. -/
theorem broadcastInDim_allNonzero (dims : Fin S.rank → Fin T.rank) (h : S.BroadcastsInDim T dims) {a : S.Idx → EReal}
    (ha : AllNonzero a) : AllNonzero (broadcastInDim T dims h a) := fun _ => ha _

/-- The same entries of an array of reals under another shape are an array of reals. -/
theorem shapeCast_allReal (h : S.ShapeCasts T) {a : S.Idx → EReal} (ha : AllReal a) : AllReal (shapeCast T a h) :=
  fun _ => ha _

/-- A block cut out of an array of reals is an array of reals. -/
theorem extractStridedSlice_allReal (off : Fin S.rank → Nat) (h : S.Slices off T) {a : S.Idx → EReal} (ha : AllReal a) :
    AllReal (extractStridedSlice T off a h) := fun _ => ha _

/-- Rows, or any slices, taken out of an array of reals by an index array are an array of reals, whatever the
    indices: each entry taken is an entry of the operand. -/
theorem gather_allReal {SI : Shape} {w : Nat} (d : GatherDims S SI T) (idx : IVec SI w) {a : S.Idx → EReal}
    (ha : AllReal a) : AllReal (Host.gather d a idx) := fun _ => ha _

end Layout

/-! ## Constants -/

/-- A constant array whose bit pattern denotes a real number is an array of reals. -/
theorem constant_allReal (S : Shape) (φ : FTy) (w : BitVec φ.bits) {r : ℝ} (h : Ideal.ofBits φ w = (r : EReal)) :
    AllReal (constant (F := Ideal) S φ w) := fun _ => ⟨r, h⟩

/-- A constant array whose bit pattern denotes a positive real number is an array of positive reals. -/
theorem constant_allPos (S : Shape) (φ : FTy) (w : BitVec φ.bits) {r : ℝ} (hr : 0 < r) (h : Ideal.ofBits φ w = (r : EReal)) :
    AllPos (constant (F := Ideal) S φ w) := fun _ => ⟨r, hr, h⟩

/-- The single-precision pattern of `+0.0` denotes `0`. -/
theorem ofBits_zero : Ideal.ofBits .f32 0x00000000#32 = ((0 : ℝ) : EReal) := by
  simp [Ideal.ofBits, Ideal.ieee]

/-- The single-precision pattern of `1.0` (biased exponent 127, significand 1) denotes `1`. -/
theorem ofBits_one : Ideal.ofBits .f32 0x3F800000#32 = ((1 : ℝ) : EReal) := by
  simp [Ideal.ofBits, Ideal.ieee, -EReal.coe_mul]; norm_num

/-- The single-precision pattern `0x47435000` (biased exponent 142, significand `12800000 / 2^23`) denotes
    `12800000 / 2^8 = 50000`. -/
theorem ofBits_50000 : Ideal.ofBits .f32 0x47435000#32 = ((50000 : ℝ) : EReal) := by
  simp [Ideal.ofBits, Ideal.ieee, -EReal.coe_mul]; norm_num

/-- The single-precision pattern `0x3727C5AC` (biased exponent 110, significand `10995116 / 2^23`), the float
    nearest `10^-5`, denotes the rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- That rational is positive. -/
theorem eps_pos : (0 : ℝ) < 10995116 / 2 ^ 40 := by norm_num

/-! ## Finite sums: a sum along axes, a matrix product, an accumulation of updates -/

/-- A real number plus a finite sum of real numbers, taken in the extended reals, is a real number. -/
theorem exists_real_add_sum {ι : Type} (s : Finset ι) (c : EReal) (f : ι → EReal) (hc : ∃ r : ℝ, c = (r : EReal))
    (h : ∀ k ∈ s, ∃ r : ℝ, f k = (r : EReal)) : ∃ r : ℝ, c + ∑ k ∈ s, f k = (r : EReal) := by
  obtain ⟨r0, hr0⟩ := hc
  obtain ⟨r, hr⟩ := exists_real_sum s f h
  exact ⟨r0 + r, by rw [hr0, hr, EReal.coe_add]⟩

/-- The sum of an array of reals along any set of axes, started from a real initial value, is an array of reals:
    each entry is the initial value plus a finite sum of entries of the operand. -/
theorem reduceAdd_allReal {S T V : Shape} {φ : FTy} {axes : List (Fin S.rank)} {x : FVec Ideal S φ} {init : V.Idx → Ideal φ}
    (hx : AllReal x) (hinit : AllReal init) (h : S.ReducesTo axes T) (hv : 0 < V.numel) :
    AllReal (Host.reduceAdd (F := Ideal) x init h hv) := fun j => by
  show ∃ t : ℝ, Ideal.hostReduceAdd h x (init (Shape.Idx.first hv)) j = (t : EReal)
  unfold Ideal.hostReduceAdd
  exact exists_real_add_sum _ _ _ (hinit _) fun k _ => hx k

/-- The same for the sum a tiled program takes along axes of a block: each entry is a finite sum of entries of the
    operand. -/
theorem multiReduction_add_allReal {S T : Shape} {φ : FTy} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := fun j => by
  show ∃ t : ℝ, Ideal.reduceAdd h x j = (t : EReal)
  unfold Ideal.reduceAdd
  exact exists_real_sum _ _ fun k _ => hx k

/-- A product of two arrays of reals contracted over any axes is an array of reals: each entry is a finite sum of
    products of an entry of the one with an entry of the other. -/
theorem dotGeneral_allReal {SL SR SO : Shape} {φ₁ φ₂ : FTy} (d : DotDims SL SR SO) (prec : Option ContractPrecision)
    {l : FVec Ideal SL φ₁} {r : FVec Ideal SR φ₂} (hl : AllReal l) (hr : AllReal r) :
    AllReal (Host.dotGeneral (F := Ideal) d prec l r) := fun j => by
  show ∃ t : ℝ, FloatOps.dotGeneral d prec .single l r j = (t : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- The same product added to an array of reals, as a tiled program accumulates it, is an array of reals. -/
theorem matmul_allReal {SL SR SO : Shape} {φ₁ φ₂ : FTy} (d : DotDims SL SR SO) (prec : Option ContractPrecision)
    {l : FVec Ideal SL φ₁} {r : FVec Ideal SR φ₂} {acc : FVec Ideal SO .f32} (hl : AllReal l) (hr : AllReal r)
    (hacc : AllReal acc) : AllReal (matmul (F := Ideal) d prec l r acc) := fun j => by
  show ∃ t : ℝ, FloatOps.matmul d prec l r acc j = (t : EReal)
  rw [Ideal.matmul_apply]
  refine exists_real_add_sum _ _ _ (hacc j) fun k _ => ?_
  obtain ⟨a, ha⟩ := hl (d.lhsIdx j k)
  obtain ⟨b, hb⟩ := hr (d.rhsIdx j k)
  exact ⟨a * b, by rw [ha, hb, EReal.coe_mul]⟩

/-- Accumulating an array of real updates into an array of reals at the places an index array names gives an array
    of reals, whatever the indices: each entry is the operand's entry plus the finite sum of the updates that
    land on it. -/
theorem scatterAdd_allReal {S SI SU : Shape} {φ : FTy} {w : Nat} (d : ScatterDims S SI SU) (idx : IVec SI w)
    {x : FVec Ideal S φ} {u : FVec Ideal SU φ} (hx : AllReal x) (hu : AllReal u) :
    AllReal (Host.scatterAdd (F := Ideal) d x idx u) := fun i => by
  show ∃ t : ℝ, Ideal.hostScatterAdd d x idx u i = (t : EReal)
  unfold Ideal.hostScatterAdd
  exact exists_real_add_sum _ _ _ (hx i) fun k _ => hu k

/-! ## Integers read as floats, and a choice whose condition is known -/

/-- A signed integer array read as floats is an array of reals: each entry is the integer itself. -/
theorem sitofp_allReal {S : Shape} {w : Nat} (φ : FTy) (x : IVec S w) : AllReal (sitofp (F := Ideal) φ x) :=
  fun i => ⟨((x i).toInt : ℝ), rfl⟩

/-- An unsigned integer array read as floats is an array of reals: each entry is the integer itself. -/
theorem uitofp_allReal {S : Shape} {w : Nat} (φ : FTy) (x : IVec S w) : AllReal (uitofp (F := Ideal) φ x) :=
  fun i => ⟨((x i).toNat : ℝ), rfl⟩

/-- The entrywise negative of an array of reals is an array of reals. -/
theorem negf_allReal {S : Shape} {φ : FTy} {a : FVec Ideal S φ} (ha : AllReal a) : AllReal (negf a) := fun i => by
  obtain ⟨r, hr⟩ := ha i
  exact ⟨-r, by show -(a i) = _; rw [hr, EReal.coe_neg]⟩

/-- Where the condition holds at every entry, the choice is its first array. -/
theorem select_of_true {S : Shape} {α : Type} {p : IVec S 1} (hp : ∀ i, p i = 1) (a b : S.Idx → α) : select p a b = a :=
  funext fun i => show (if p i = 1 then a i else b i) = a i from if_pos (hp i)

/-- Where the condition fails at every entry, the choice is its second array. -/
theorem select_of_false {S : Shape} {α : Type} {p : IVec S 1} (hp : ∀ i, p i ≠ 1) (a b : S.Idx → α) : select p a b = b :=
  funext fun i => show (if p i = 1 then a i else b i) = b i from if_neg (hp i)

/-- So such a choice is an array of reals as soon as its first array is, whatever the second holds. -/
theorem select_allReal_of_true {S : Shape} {p : IVec S 1} (hp : ∀ i, p i = 1) {a : S.Idx → EReal} (b : S.Idx → EReal)
    (ha : AllReal a) : AllReal (select p a b) := by
  rw [select_of_true hp]; exact ha

/-- The comparison `x > y` answers `1` at an entry where `y` is below `x`. -/
theorem cmpf_ogt_eq_one {S : Shape} {φ : FTy} {x y : FVec Ideal S φ} {i : S.Idx} (h : y i < x i) :
    cmpf (F := Ideal) .ogt x y i = 1 := by
  show BitVec.ofBool (decide (y i < x i)) = 1
  simp [h]

/-! ## Signs: arrays of reals that are at least zero -/

/-- Every entry of the array is a real number that is at least zero. -/
def AllNonneg {S : Shape} (a : S.Idx → EReal) : Prop := ∀ i, ∃ r : ℝ, 0 ≤ r ∧ a i = (r : EReal)

/-- Positive reals are at least zero. -/
theorem AllPos.allNonneg {S : Shape} {a : S.Idx → EReal} (h : AllPos a) : AllNonneg a := fun i => by
  obtain ⟨r, hr, e⟩ := h i
  exact ⟨r, hr.le, e⟩

/-- Reals that are at least zero are reals. -/
theorem AllNonneg.allReal {S : Shape} {a : S.Idx → EReal} (h : AllNonneg a) : AllReal a := fun i => by
  obtain ⟨r, _, e⟩ := h i
  exact ⟨r, e⟩

/-- A finite sum of extended reals each of which is a real at least zero is a real at least zero. -/
theorem exists_nonneg_sum {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  choose! g hg0 hg using h
  exact ⟨∑ k ∈ s, g k, Finset.sum_nonneg hg0, by rw [coe_finset_sum]; exact Finset.sum_congr rfl hg⟩

/-- A real at least zero plus such a sum is a real at least zero. -/
theorem exists_nonneg_add_sum {ι : Type} (s : Finset ι) (c : EReal) (f : ι → EReal)
    (hc : ∃ r : ℝ, 0 ≤ r ∧ c = (r : EReal)) (h : ∀ k ∈ s, ∃ r : ℝ, 0 ≤ r ∧ f k = (r : EReal)) :
    ∃ r : ℝ, 0 ≤ r ∧ c + ∑ k ∈ s, f k = (r : EReal) := by
  obtain ⟨r0, h0, hr0⟩ := hc
  obtain ⟨r, h1, hr⟩ := exists_nonneg_sum s f h
  exact ⟨r0 + r, add_nonneg h0 h1, by rw [hr0, hr, EReal.coe_add]⟩

section Signs
variable {S : Shape} {φ : FTy}

/-- A constant array whose bit pattern denotes a real at least zero is an array of such reals. -/
theorem constant_allNonneg (S : Shape) (φ : FTy) (w : BitVec φ.bits) {r : ℝ} (hr : 0 ≤ r)
    (h : Ideal.ofBits φ w = (r : EReal)) : AllNonneg (constant (F := Ideal) S φ w) := fun _ => ⟨r, hr, h⟩

/-- Repeating an array of reals at least zero along new axes gives an array of reals at least zero. -/
theorem broadcastInDim_allNonneg {T : Shape} (dims : Fin S.rank → Fin T.rank) (h : S.BroadcastsInDim T dims)
    {a : S.Idx → EReal} (ha : AllNonneg a) : AllNonneg (broadcastInDim T dims h a) := fun _ => ha _

/-- The sum of two arrays of reals at least zero is an array of reals at least zero. -/
theorem addf_allNonneg {a b : FVec Ideal S φ} (ha : AllNonneg a) (hb : AllNonneg b) : AllNonneg (addf a b) := fun i => by
  obtain ⟨r, hr0, hr⟩ := ha i
  obtain ⟨t, ht0, ht⟩ := hb i
  exact ⟨r + t, add_nonneg hr0 ht0, by show a i + b i = _; rw [hr, ht, EReal.coe_add]⟩

/-- The product of two arrays of reals at least zero is an array of reals at least zero. -/
theorem mulf_allNonneg {a b : FVec Ideal S φ} (ha : AllNonneg a) (hb : AllNonneg b) : AllNonneg (mulf a b) := fun i => by
  obtain ⟨r, hr0, hr⟩ := ha i
  obtain ⟨t, ht0, ht⟩ := hb i
  exact ⟨r * t, mul_nonneg hr0 ht0, by show a i * b i = _; rw [hr, ht, EReal.coe_mul]⟩

/-- The entrywise square of an array of reals is an array of reals at least zero. -/
theorem mulf_self_allNonneg {a : FVec Ideal S φ} (ha : AllReal a) : AllNonneg (mulf a a) := fun i => by
  obtain ⟨r, hr⟩ := ha i
  exact ⟨r * r, mul_self_nonneg r, by show a i * a i = _; rw [hr, EReal.coe_mul]⟩

/-- The entrywise maximum of an array of reals with an array of reals at least zero is at least zero: the rectifier
    `max x 0` among them. -/
theorem maximumf_allNonneg_right {a b : FVec Ideal S φ} (ha : AllReal a) (hb : AllNonneg b) :
    AllNonneg (maximumf a b) := fun i => by
  show ∃ r : ℝ, 0 ≤ r ∧ max (a i) (b i) = (r : EReal)
  obtain ⟨r, hr⟩ := ha i
  obtain ⟨t, ht0, ht⟩ := hb i
  refine ⟨max r t, le_max_of_le_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- The quotient of an array of reals at least zero by an array of positive reals is an array of reals at least
    zero. -/
theorem divf_allNonneg {a b : FVec Ideal S φ} (ha : AllNonneg a) (hb : AllPos b) :
    AllNonneg (Host.divf (F := Ideal) a b) := fun i => by
  obtain ⟨r, hr0, hr⟩ := ha i
  obtain ⟨t, ht0, ht⟩ := hb i
  refine ⟨r * (1 / t), mul_nonneg hr0 (one_div_pos.mpr ht0).le, ?_⟩
  show Ideal.div (a i) (b i) = _
  rw [hr, ht, Ideal.div_coe ht0.ne', EReal.coe_mul]

/-- The sum of an array of reals at least zero along any axes, started from a real at least zero, is an array of
    reals at least zero. -/
theorem reduceAdd_allNonneg {T V : Shape} {axes : List (Fin S.rank)} {x : FVec Ideal S φ} {init : V.Idx → Ideal φ}
    (hx : AllNonneg x) (hinit : AllNonneg init) (h : S.ReducesTo axes T) (hv : 0 < V.numel) :
    AllNonneg (Host.reduceAdd (F := Ideal) x init h hv) := fun j => by
  show ∃ t : ℝ, 0 ≤ t ∧ Ideal.hostReduceAdd h x (init (Shape.Idx.first hv)) j = (t : EReal)
  unfold Ideal.hostReduceAdd
  exact exists_nonneg_add_sum _ _ _ (hinit _) fun k _ => hx k

/-- Accumulating updates that are reals at least zero into an array of reals at least zero gives an array of reals
    at least zero, whatever the indices: a count of how many updates land on each entry among them. -/
theorem scatterAdd_allNonneg {SI SU : Shape} {w : Nat} (d : ScatterDims S SI SU) (idx : IVec SI w)
    {x : FVec Ideal S φ} {u : FVec Ideal SU φ} (hx : AllNonneg x) (hu : AllNonneg u) :
    AllNonneg (Host.scatterAdd (F := Ideal) d x idx u) := fun i => by
  show ∃ t : ℝ, 0 ≤ t ∧ Ideal.hostScatterAdd d x idx u i = (t : EReal)
  unfold Ideal.hostScatterAdd
  exact exists_nonneg_add_sum _ _ _ (hx i) fun k _ => hu k

end Signs

end Cert.LibReal

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.LibSageLayer.lean ====
/-
  ONE GRAPH-CONVOLUTION LAYER (mean aggregation), IN TWO ARRANGEMENTS, AT THE EXTENDED REALS.

  A node i has a row x(i, ·) of K features, a row agg(i, ·) of the summed features of its in-neighbours and a
  count d(i) ≥ 1 (the in-degree, raised to one where it is zero).  The layer sends node i to the row

      j ↦ Σ_k mean(i, k) · wl(k, j)  +  Σ_k x(i, k) · wr(k, j)  +  b(j),        mean(i, k) = agg(i, k) / d(i),

  optionally followed by the rectifier max(·, 0).

  The tiled program forms mean as agg(i, k) · (1 / d(i)), adds the two products first and the bias last; the array
  program divides agg(i, k) by d(i), adds the bias to the first product and the second product last.  Since d(i) is a
  nonzero real, a / d(i) = a · (1 / d(i)) for EVERY extended real a (infinite ones included), and the three summands
  are only re-associated: no distributive law is used, so nothing is asked of x, agg or the weights.
-/
import proofs.«107614_j32787780338275_1_alg».proof.Proof.LibBlocks
import proofs.«107614_j32787780338275_1_alg».proof.Proof.LibDenseLayer
import proofs.«107614_j32787780338275_1_alg».proof.Proof.LibReal
import proofs.«107614_j32787780338275_1_alg».proof.Proof.LibLayout

noncomputable section

open scoped BigOperators

namespace Cert.SageLayer

open Idealize.ShloMosaic Idealize.ShloMosaic.ValueIdx Cert.LibReal

variable {n N K M : Nat}

/-- Entry (i, j) of the layer as the tiled program arranges it: both products, then the bias row's entry j. -/
def entry (mean x : FVec Ideal ⟨2, ![N, K]⟩ .f32) (wl wr : FVec Ideal ⟨2, ![K, M]⟩ .f32) (b : FVec Ideal ⟨2, ![1, M]⟩ .f32)
    (i : Fin N) (j : Fin M) : EReal :=
  (∑ k : Fin K, mean (ix2 i k) * wl (ix2 k j) + ∑ k : Fin K, x (ix2 i k) * wr (ix2 k j)) + b (ix2 (0 : Fin 1) j)

/-- The layer without rectifier, as one array. -/
def linear (mean x : FVec Ideal ⟨2, ![N, K]⟩ .f32) (wl wr : FVec Ideal ⟨2, ![K, M]⟩ .f32) (b : FVec Ideal ⟨2, ![1, M]⟩ .f32) :
    FVec Ideal ⟨2, ![N, M]⟩ .f32 := fun i => entry mean x wl wr b (i 0) (i 1)

/-- The layer with rectifier, as one array. -/
def hidden (mean x : FVec Ideal ⟨2, ![N, K]⟩ .f32) (wl wr : FVec Ideal ⟨2, ![K, M]⟩ .f32) (b : FVec Ideal ⟨2, ![1, M]⟩ .f32) :
    FVec Ideal ⟨2, ![N, M]⟩ .f32 := fun i => max (entry mean x wl wr b (i 0) (i 1)) (Ideal.ofBits .f32 0x00000000#32)

/-! ## A block of rows: the tiled body at one entry -/

/-- The body without rectifier on a block of n rows, at entry (p, q): the layer's entry on the block's rows. -/
theorem linear_body_entry
    (dk : DotDims ⟨2, ![n, K]⟩ ⟨2, ![K, M]⟩ ⟨2, ![n, M]⟩) (hdk : dk = DotDims.plain n K M)
    (hlt : FTy.bf16.bits < FTy.f32.bits)
    (hc1 : (⟨2, ![1, M]⟩ : Shape).ShapeCasts ⟨2, ![1, M]⟩) (hb : (⟨2, ![1, M]⟩ : Shape).Broadcasts ⟨2, ![n, M]⟩)
    (x0 x1 : FVec Ideal ⟨2, ![n, K]⟩ .f32) (w0 w1 : FVec Ideal ⟨2, ![K, M]⟩ .f32) (c : FVec Ideal ⟨2, ![1, M]⟩ .f32)
    (p : Fin n) (q : Fin M) :
    addf (addf (matmul dk none (truncf .bf16 x0 hlt) (truncf .bf16 w0 hlt) (constant ⟨2, ![n, M]⟩ .f32 0x00000000#32))
          (matmul dk none (truncf .bf16 x1 hlt) (truncf .bf16 w1 hlt) (constant ⟨2, ![n, M]⟩ .f32 0x00000000#32)))
        (broadcastTo ⟨2, ![n, M]⟩ (shapeCast ⟨2, ![1, M]⟩ c hc1) hb) (ix2 p q)
      = entry x0 x1 w0 w1 c p q := by
  rw [addf_apply, addf_apply, Cert.LibDenseLayer.bias_block_entry hc1 hb c p q]
  show (FloatOps.matmul dk none _ _ _ _ + FloatOps.matmul dk none _ _ _ _) + _ = _
  rw [Cert.LibBlocks.matmul_plain_apply dk hdk, Cert.LibBlocks.matmul_plain_apply dk hdk]
  rfl

/-- The body with rectifier on a block of n rows, at entry (p, q). -/
theorem hidden_body_entry
    (dk : DotDims ⟨2, ![n, K]⟩ ⟨2, ![K, M]⟩ ⟨2, ![n, M]⟩) (hdk : dk = DotDims.plain n K M)
    (hlt : FTy.bf16.bits < FTy.f32.bits)
    (hc1 : (⟨2, ![1, M]⟩ : Shape).ShapeCasts ⟨2, ![1, M]⟩) (hb : (⟨2, ![1, M]⟩ : Shape).Broadcasts ⟨2, ![n, M]⟩)
    (x0 x1 : FVec Ideal ⟨2, ![n, K]⟩ .f32) (w0 w1 : FVec Ideal ⟨2, ![K, M]⟩ .f32) (c : FVec Ideal ⟨2, ![1, M]⟩ .f32)
    (p : Fin n) (q : Fin M) :
    maximumf (addf (addf (matmul dk none (truncf .bf16 x0 hlt) (truncf .bf16 w0 hlt) (constant ⟨2, ![n, M]⟩ .f32 0x00000000#32))
          (matmul dk none (truncf .bf16 x1 hlt) (truncf .bf16 w1 hlt) (constant ⟨2, ![n, M]⟩ .f32 0x00000000#32)))
        (broadcastTo ⟨2, ![n, M]⟩ (shapeCast ⟨2, ![1, M]⟩ c hc1) hb))
        (broadcast ⟨2, ![n, M]⟩ (Scalar.ofBits (F := Ideal) .f32 0x00000000#32)) (ix2 p q)
      = max (entry x0 x1 w0 w1 c p q) (Ideal.ofBits .f32 0x00000000#32) := by
  rw [maximumf_apply, linear_body_entry dk hdk hlt hc1 hb x0 x1 w0 w1 c p q]
  rfl

/-- The layer's entry reads only row i of its two row arrays: equal rows give equal entries. -/
theorem entry_congr_rows (mean x : FVec Ideal ⟨2, ![n, K]⟩ .f32) (mean' x' : FVec Ideal ⟨2, ![N, K]⟩ .f32)
    (wl wr : FVec Ideal ⟨2, ![K, M]⟩ .f32) (b : FVec Ideal ⟨2, ![1, M]⟩ .f32) (p : Fin n) (r : Fin N)
    (hm : ∀ k : Fin K, mean (ix2 p k) = mean' (ix2 r k)) (hx : ∀ k : Fin K, x (ix2 p k) = x' (ix2 r k)) (q : Fin M) :
    entry mean x wl wr b p q = entry mean' x' wl wr b r q := by
  unfold entry
  have e1 : ∀ k : Fin K, mean (ix2 p k) * wl (ix2 k q) = mean' (ix2 r k) * wl (ix2 k q) := fun k => by rw [hm k]
  have e2 : ∀ k : Fin K, x (ix2 p k) * wr (ix2 k q) = x' (ix2 r k) * wr (ix2 k q) := fun k => by rw [hx k]
  rw [Finset.sum_congr rfl fun k _ => e1 k, Finset.sum_congr rfl fun k _ => e2 k]

/-! ## The two arrangements agree -/

/-- The reciprocal of the count, kept as a column and repeated along the rows, at entry (i, k): 1 / d(i). -/
theorem recip_col_entry (d : FVec Ideal ⟨1, ![N]⟩ .f32)
    (h1 : (⟨2, ![N, 1]⟩ : Shape).BroadcastsInDim ⟨2, ![N, K]⟩ ![0, 1])
    (h5 : (⟨1, ![N]⟩ : Shape).ShapeCasts ⟨2, ![N, 1]⟩) (h2 : (⟨1, ![N]⟩ : Shape).BroadcastsInDim ⟨2, ![N, 1]⟩ ![0])
    (i : Fin N) (k : Fin K) :
    broadcastInDim ⟨2, ![N, K]⟩ ![0, 1] h1 (shapeCast ⟨2, ![N, 1]⟩ d h5) (ix2 i k) = d (ix1 i) := by
  rw [Cert.Proof.Layout.reshape_col_eq_broadcastInDim d h5 h2]
  rw [broadcastInDim_apply ![0, 1] h1 _ (ix2 i k) (ix2 i (0 : Fin 1)) (fun a => by
    match a with
    | ⟨0, _⟩ =>
      show i.val = if N = 1 then 0 else i.val
      have := i.isLt
      split_ifs <;> omega
    | ⟨1, _⟩ => rfl)]
  exact broadcastInDim_apply ![0] h2 d (ix2 i (0 : Fin 1)) (ix1 i) (fun a => by
    match a with
    | ⟨0, _⟩ =>
      show i.val = if N = 1 then 0 else i.val
      have := i.isLt
      split_ifs <;> omega)

/-- The count, made a column and repeated along the rows, at entry (i, k): d(i). -/
theorem count_col_entry (d : FVec Ideal ⟨1, ![N]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (i : Fin N) (k : Fin K) :
    broadcastInDim ⟨2, ![N, K]⟩ ![0, 1] h1 (broadcastInDim ⟨2, ![N, 1]⟩ ![0] h2 d) (ix2 i k) = d (ix1 i) := by
  rw [broadcastInDim_apply ![0, 1] h1 _ (ix2 i k) (ix2 i (0 : Fin 1)) (fun a => by
    match a with
    | ⟨0, _⟩ =>
      show i.val = if N = 1 then 0 else i.val
      have := i.isLt
      split_ifs <;> omega
    | ⟨1, _⟩ => rfl)]
  exact broadcastInDim_apply ![0] h2 d (ix2 i (0 : Fin 1)) (ix1 i) (fun a => by
    match a with
    | ⟨0, _⟩ =>
      show i.val = if N = 1 then 0 else i.val
      have := i.isLt
      split_ifs <;> omega)

/-- Multiplying by the reciprocal of a nonzero real count is dividing by it, for every extended real. -/
theorem mul_recip_eq_div (a : EReal) {t : ℝ} (ht : t ≠ 0) :
    a * Ideal.div (Ideal.ofBits .f32 0x3F800000#32) (t : EReal) = Ideal.div a (t : EReal) := by
  rw [Ideal.div_coe ht, Ideal.div_coe ht, ofBits_one, ← EReal.coe_mul, one_mul]

/-- The mean as the tiled program forms it (agg times the reciprocal column) is the mean as the array program forms it
    (agg divided by the count column), when every count is a nonzero real. -/
theorem mean_eq (agg : FVec Ideal ⟨2, ![N, K]⟩ .f32) (d : FVec Ideal ⟨1, ![N]⟩ .f32) (hd : AllNonzero d)
    (h1 : (⟨2, ![N, 1]⟩ : Shape).BroadcastsInDim ⟨2, ![N, K]⟩ ![0, 1])
    (h2 : (⟨1, ![N]⟩ : Shape).BroadcastsInDim ⟨2, ![N, 1]⟩ ![0])
    (h5 : (⟨1, ![N]⟩ : Shape).ShapeCasts ⟨2, ![N, 1]⟩)
    (h7 : (⟨0, ![]⟩ : Shape).BroadcastsInDim ⟨1, ![N]⟩ ![]) :
    mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5))
      = Host.divf (F := Ideal) agg (broadcastInDim ⟨2, ![N, K]⟩ ![0, 1] h1 (broadcastInDim ⟨2, ![N, 1]⟩ ![0] h2 d)) := by
  funext idx
  obtain ⟨i, k, rfl⟩ : ∃ (i : Fin N) (k : Fin K), idx = ix2 i k := ⟨idx 0, idx 1, eq_ix2 idx⟩
  obtain ⟨t, ht, e⟩ := hd (ix1 i)
  rw [mulf_apply, recip_col_entry _ h1 h5 h2 i k]
  show _ = Ideal.div (agg (ix2 i k)) _
  rw [count_col_entry d h1 h2 i k, e]
  show agg (ix2 i k) * Ideal.div (Ideal.ofBits .f32 0x3F800000#32) (d (ix1 i)) = _
  rw [e]
  exact mul_recip_eq_div _ ht

/-- The bias vector as a 1 x M row, repeated down the N rows, at entry (i, j): b(j), read from the reshaped row. -/
theorem bias_entry (bias : FVec Ideal ⟨1, ![M]⟩ .f32)
    (h3 : (⟨2, ![1, M]⟩ : Shape).BroadcastsInDim ⟨2, ![N, M]⟩ ![0, 1])
    (h4 : (⟨1, ![M]⟩ : Shape).BroadcastsInDim ⟨2, ![1, M]⟩ ![1])
    (h6 : (⟨1, ![M]⟩ : Shape).ShapeCasts ⟨2, ![1, M]⟩) (i : Fin N) (j : Fin M) :
    broadcastInDim ⟨2, ![N, M]⟩ ![0, 1] h3 (broadcastInDim ⟨2, ![1, M]⟩ ![1] h4 bias) (ix2 i j)
      = shapeCast ⟨2, ![1, M]⟩ bias h6 (ix2 (0 : Fin 1) j) := by
  rw [Cert.Proof.Layout.reshape_row_eq_broadcastInDim bias h6 h4]
  exact Cert.LibDenseLayer.bias_array_entry h3 _ i j

/-- THE LAYER WITHOUT RECTIFIER: the tiled arrangement (over the mean formed by the reciprocal column and the bias as a
    reshaped row) is the array arrangement. -/
theorem linear_eq_ref
    (dr : DotDims ⟨2, ![N, K]⟩ ⟨2, ![K, M]⟩ ⟨2, ![N, M]⟩) (hdr : dr = DotDims.plain N K M)
    (agg x : FVec Ideal ⟨2, ![N, K]⟩ .f32) (d : FVec Ideal ⟨1, ![N]⟩ .f32) (hd : AllNonzero d)
    (wl wr : FVec Ideal ⟨2, ![K, M]⟩ .f32) (bias : FVec Ideal ⟨1, ![M]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (h3 : (⟨2, ![1, M]⟩ : Shape).BroadcastsInDim ⟨2, ![N, M]⟩ ![0, 1])
    (h4 : (⟨1, ![M]⟩ : Shape).BroadcastsInDim ⟨2, ![1, M]⟩ ![1])
    (h5 : (⟨1, ![N]⟩ : Shape).ShapeCasts ⟨2, ![N, 1]⟩) (h6 : (⟨1, ![M]⟩ : Shape).ShapeCasts ⟨2, ![1, M]⟩)
    (h7 : (⟨0, ![]⟩ : Shape).BroadcastsInDim ⟨1, ![N]⟩ ![]) :
    linear (mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5)))
        x wl wr (shapeCast ⟨2, ![1, M]⟩ bias h6)
      = addf (addf (Host.dotGeneral (F := Ideal) dr none
            (Host.divf (F := Ideal) agg (broadcastInDim ⟨2, ![N, K]⟩ ![0, 1] h1 (broadcastInDim ⟨2, ![N, 1]⟩ ![0] h2 d))) wl)
          (broadcastInDim ⟨2, ![N, M]⟩ ![0, 1] h3 (broadcastInDim ⟨2, ![1, M]⟩ ![1] h4 bias)))
        (Host.dotGeneral (F := Ideal) dr none x wr) := by
  rw [mean_eq agg d hd h1 h2 h5 h7]
  funext idx
  obtain ⟨i, j, rfl⟩ : ∃ (i : Fin N) (j : Fin M), idx = ix2 i j := ⟨idx 0, idx 1, eq_ix2 idx⟩
  rw [addf_apply, addf_apply, bias_entry bias h3 h4 h6 i j]
  show entry _ x wl wr _ i j = (FloatOps.dotGeneral dr none .single _ wl (ix2 i j) + _) + FloatOps.dotGeneral dr none .single x wr (ix2 i j)
  rw [Cert.LibBlocks.dotGeneral_plain_apply dr hdr, Cert.LibBlocks.dotGeneral_plain_apply dr hdr]
  unfold entry
  exact add_right_comm _ _ _

/-- THE LAYER WITH RECTIFIER: the same, under max(·, 0). -/
theorem hidden_eq_ref
    (dr : DotDims ⟨2, ![N, K]⟩ ⟨2, ![K, M]⟩ ⟨2, ![N, M]⟩) (hdr : dr = DotDims.plain N K M)
    (agg x : FVec Ideal ⟨2, ![N, K]⟩ .f32) (d : FVec Ideal ⟨1, ![N]⟩ .f32) (hd : AllNonzero d)
    (wl wr : FVec Ideal ⟨2, ![K, M]⟩ .f32) (bias : FVec Ideal ⟨1, ![M]⟩ .f32)
    (h1 : (⟨2, ![N, 1]⟩ : Shape).BroadcastsInDim ⟨2, ![N, K]⟩ ![0, 1])
    (h2 : (⟨1, ![N]⟩ : Shape).BroadcastsInDim ⟨2, ![N, 1]⟩ ![0])
    (h3 : (⟨2, ![1, M]⟩ : Shape).BroadcastsInDim ⟨2, ![N, M]⟩ ![0, 1])
    (h4 : (⟨1, ![M]⟩ : Shape).BroadcastsInDim ⟨2, ![1, M]⟩ ![1])
    (h5 : (⟨1, ![N]⟩ : Shape).ShapeCasts ⟨2, ![N, 1]⟩) (h6 : (⟨1, ![M]⟩ : Shape).ShapeCasts ⟨2, ![1, M]⟩)
    (h7 : (⟨0, ![]⟩ : Shape).BroadcastsInDim ⟨1, ![N]⟩ ![])
    (hz : (⟨0, ![]⟩ : Shape).BroadcastsInDim ⟨2, ![N, M]⟩ ![]) :
    hidden (mulf agg (broadcastInDim ⟨2, ![N, K]⟩ ![0, 1] h1 (shapeCast ⟨2, ![N, 1]⟩
        (Host.divf (F := Ideal) (broadcastInDim ⟨1, ![N]⟩ ![] h7 (constant (F := Ideal) ⟨0, ![]⟩ .f32 0x3F800000#32)) d) h5)))
        x wl wr (shapeCast ⟨2, ![1, M]⟩ bias h6)
      = maximumf (addf (addf (Host.dotGeneral (F := Ideal) dr none
            (Host.divf (F := Ideal) agg (broadcastInDim ⟨2, ![N, K]⟩ ![0, 1] h1 (broadcastInDim ⟨2, ![N, 1]⟩ ![0] h2 d))) wl)
          (broadcastInDim ⟨2, ![N, M]⟩ ![0, 1] h3 (broadcastInDim ⟨2, ![1, M]⟩ ![1] h4 bias)))
        (Host.dotGeneral (F := Ideal) dr none x wr))
        (broadcastInDim ⟨2, ![N, M]⟩ ![] hz (constant (F := Ideal) ⟨0, ![]⟩ .f32 0x00000000#32)) := by
  rw [← linear_eq_ref dr hdr agg x d hd wl wr bias h1 h2 h3 h4 h5 h6 h7]
  funext idx
  rw [maximumf_apply, broadcastInDim_apply ![] hz (constant (F := Ideal) ⟨0, ![]⟩ .f32 0x00000000#32) idx ix0 (fun a => a.elim0)]
  rfl

end Cert.SageLayer

end
-- ==== Proof.KLayer1.lean ====
/-
  THE FIRST TILED LAYER, READ BACK AS ONE ARRAY.

  The first tiled call walks the 100000 nodes in 20 blocks of 5000 rows.  At block t its body sees rows 5000 t … 5000 t + 4999
  of the mean array and of the feature array, the two weight matrices and the bias row whole, and stores, at local entry
  (p, q), the layer's entry for node 5000 t + p under the rectifier: the two products into zero accumulators are the sums over the 9
  feature positions (a change of float format is the identity on the extended reals), then the bias row's entry q, then max(·, 0).
  The layer's entry for a node reads that node's rows only, so what block t writes back is block t of the layer applied
  to the whole arrays; the 20 blocks cover every row, so after the call the output array IS that layer of the arrays the
  call was entered with.  Stated at ANY contents V of the buffers at the call's entry.
-/
import proofs.«107614_j32787780338275_1_alg».proof.Proof.Gen.KernelIdeal.Frame
import proofs.«107614_j32787780338275_1_alg».proof.Proof.LibSageLayer

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := Cert.LibBlocks.off2_zero

/-- The body's stored value at local entry (p, q): the layer's entry on the block's rows, under the rectifier. -/
theorem pay_entry (x0 x1 : FVec Ideal S5000x9 .f32) (w0 w1 : FVec Ideal S9x64 .f32) (b : FVec Ideal S1x64 .f32)
    (p : Fin 5000) (q : Fin 64) :
    k0_pay1 (F := Ideal) x0 x1 w0 w1 b (ix2 p q)
      = max (Cert.SageLayer.entry x0 x1 w0 w1 b p q) (Ideal.ofBits .f32 0x00000000#32) := by
  unfold k0_pay1
  rw [shapeCast_self]
  exact Cert.SageLayer.hidden_body_entry dot_S5000x9_S9x64_S5000x64_1_0_0_1_n_n rfl bitsLt_bf16_f32
    shapeCasts_S1x64_S1x64 broadcasts_S1x64_S5000x64 x0 x1 w0 w1 b p q

/-- The body's stored value at a local index y against the layer of whole arrays at an array index i, when local row
    y 0 of each row block is array row i 0, the matrices and the bias row are the arrays', and the columns agree. -/
theorem point (x0 x1 : FVec Ideal S5000x9 .f32) (w0 w1 : FVec Ideal S9x64 .f32) (b : FVec Ideal S1x64 .f32)
    (A X : FVec Ideal S100000x9 .f32) (W0 W1 : FVec Ideal S9x64 .f32) (B : FVec Ideal S1x64 .f32)
    (y : S5000x64.Idx) (i : S100000x64.Idx)
    (h0 : ∀ k : Fin 9, x0 (ix2 (y 0) k) = A (ix2 (i 0) k)) (h1 : ∀ k : Fin 9, x1 (ix2 (y 0) k) = X (ix2 (i 0) k))
    (hw0 : w0 = W0) (hw1 : w1 = W1) (hb : b = B) (hq : (y 1).val = (i 1).val) :
    k0_pay1 (F := Ideal) x0 x1 w0 w1 b y = Cert.SageLayer.hidden A X W0 W1 B i := by
  subst hw0 hw1 hb
  have hy : y = ix2 (n0 := 5000) (n1 := 64) (y 0) (y 1) := eq_ix2 (n0 := 5000) (n1 := 64) y
  refine (congrArg (k0_pay1 (F := Ideal) x0 x1 w0 w1 b) hy).trans ((pay_entry x0 x1 w0 w1 b (y 0) (y 1)).trans ?_)
  show max (Cert.SageLayer.entry x0 x1 w0 w1 b (y 0) (y 1)) _ = max (Cert.SageLayer.entry A X w0 w1 b (i 0) (i 1)) _
  rw [Cert.SageLayer.entry_congr_rows x0 x1 A X w0 w1 b (y 0) (i 0) h0 h1 (y 1),
    show (y 1 : Fin 64) = i 1 from Fin.ext hq]

/-- The printed index maps over the grid: the row blocks and the output block sit at block row t, column block 0; the
    matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT BLOCK t WRITES BACK is block t of the layer of the arrays as the call finds them. -/
theorem flushed (c : Dev nD) (t : Fin cfg0.N) :
    (dat0 V c).flushed 5 t = ((cfg0.win 5).blk t).view.read (Elt Ideal)
      (Cert.SageLayer.hidden (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S5000x9) hz, View.ld_unit_zero (S := S9x64) hz, View.ld_unit_zero (S := S1x64) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 4 t) (iblk0 V c 3 t) j
    = Cert.SageLayer.hidden (V c main_v24) (V c main_arg0) (V c main_arg2) (V c main_arg4) (V c main_v25) (((cfg0.win 5).blk t).view.emb j)
  refine point (iblk0 V c 0 t) (iblk0 V c 1 t) (iblk0 V c 2 t) (iblk0 V c 4 t) (iblk0 V c 3 t)
    (V c main_v24) (V c main_arg0) (V c main_arg2) (V c main_arg4) (V c main_v25) j (((cfg0.win 5).blk t).view.emb j)
    (fun k => ?_) (fun k => ?_) ?_ ?_ ?_ ?_
  · show V c main_v24 (((cfg0.win 0).blk t).view.emb (ix2 (j 0) k)) = V c main_v24 (ix2 ((((cfg0.win 5).blk t).view.emb j) 0) k)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 9 + 1 * k.val = k.val; omega
  · show V c main_arg0 (((cfg0.win 1).blk t).view.emb (ix2 (j 0) k)) = V c main_arg0 (ix2 ((((cfg0.win 5).blk t).view.emb j) 0) k)
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 9 + 1 * k.val = k.val; omega
  · funext y
    show V c main_arg2 (((cfg0.win 2).blk t).view.emb y) = V c main_arg2 y
    refine congrArg _ (funext fun a => Fin.ext ?_)
    match a with
    | ⟨0, _⟩ => show win0_2.index t (0 : Fin 2) * 9 + 1 * (y 0).val = (y 0).val; omega
    | ⟨1, _⟩ => show win0_2.index t (1 : Fin 2) * 64 + 1 * (y 1).val = (y 1).val; omega
  · funext y
    show V c main_arg4 (((cfg0.win 4).blk t).view.emb y) = V c main_arg4 y
    refine congrArg _ (funext fun a => Fin.ext ?_)
    match a with
    | ⟨0, _⟩ => show win0_4.index t (0 : Fin 2) * 9 + 1 * (y 0).val = (y 0).val; omega
    | ⟨1, _⟩ => show win0_4.index t (1 : Fin 2) * 64 + 1 * (y 1).val = (y 1).val; omega
  · funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  · show (j 1).val = win0_5.index t (1 : Fin 2) * 64 + 1 * (j 1).val
    omega

/-- An index of the output array lies in block t iff each coordinate lies in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Every index of the output array lies in the block of its row's block number. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  have ht : (i 0).val / 5000 < cfg0.N := by show _ < grid0.N; omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e51]
    omega

/-- THE OUTPUT ARRAY AFTER THE CALL: the layer of the arrays the call was entered with. -/
theorem final (c : Dev nD) :
    (dat0 V c).arrAt 5 cfg0.N
      = Cert.SageLayer.hidden (V c main_v24) (V c main_arg0) (V c main_arg2) (V c main_arg4) (V c main_v25) :=
  (dat0 V c).arrAt_eq_of_cover 5 _ (fun t _ => flushed V c t) cover

end Cert.KernelIdeal.Layer1

end
-- ==== Proof.KLayer2.lean ====
/-
  THE SECOND TILED LAYER, READ BACK AS ONE ARRAY.

  The second tiled call walks the 100000 nodes in 20 blocks of 5000 rows, now over 64 hidden features and 32 outputs,
  and without rectifier.  At block t its body sees rows 5000 t … 5000 t + 4999 of the second mean array and of the hidden
  array, the two weight matrices and the bias row whole, and stores, at local entry (p, q), the layer's entry for node
  5000 t + p: the two products into zero accumulators are the sums over the 64 hidden positions, then the bias row's
  entry q.  An entry reads its own node's rows only, so block t written back is block t of the layer of the whole
  arrays, and the 20 blocks cover every row: after the call the output array IS that layer of the arrays the call was
  entered with.  Stated at ANY contents V of the buffers at the call's entry.
-/
import proofs.«107614_j32787780338275_1_alg».proof.Proof.Gen.KernelIdeal.Frame
import proofs.«107614_j32787780338275_1_alg».proof.Proof.LibSageLayer

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := Cert.LibBlocks.off2_zero

/-- The body's stored value at local entry (p, q): the layer's entry on the block's rows. -/
theorem pay_entry (x0 x1 : FVec Ideal S5000x64 .f32) (w0 w1 : FVec Ideal S64x32 .f32) (b : FVec Ideal S1x32 .f32)
    (p : Fin 5000) (q : Fin 32) :
    k1_pay1 (F := Ideal) x0 x1 w0 w1 b (ix2 p q) = Cert.SageLayer.entry x0 x1 w0 w1 b p q := by
  unfold k1_pay1
  rw [shapeCast_self, shapeCast_self]
  exact Cert.SageLayer.linear_body_entry dot_S5000x64_S64x32_S5000x32_1_0_0_1_n_n rfl bitsLt_bf16_f32
    shapeCasts_S1x32_S1x32 broadcasts_S1x32_S5000x32 x0 x1 w0 w1 b p q

/-- The body's stored value at a local index y against the layer of whole arrays at an array index i, when local row
    y 0 of each row block is array row i 0, the matrices and the bias row are the arrays', and the columns agree. -/
theorem point (x0 x1 : FVec Ideal S5000x64 .f32) (w0 w1 : FVec Ideal S64x32 .f32) (b : FVec Ideal S1x32 .f32)
    (A X : FVec Ideal S100000x64 .f32) (W0 W1 : FVec Ideal S64x32 .f32) (B : FVec Ideal S1x32 .f32)
    (y : S5000x32.Idx) (i : S100000x32.Idx)
    (h0 : ∀ k : Fin 64, x0 (ix2 (y 0) k) = A (ix2 (i 0) k)) (h1 : ∀ k : Fin 64, x1 (ix2 (y 0) k) = X (ix2 (i 0) k))
    (hw0 : w0 = W0) (hw1 : w1 = W1) (hb : b = B) (hq : (y 1).val = (i 1).val) :
    k1_pay1 (F := Ideal) x0 x1 w0 w1 b y = Cert.SageLayer.linear A X W0 W1 B i := by
  subst hw0 hw1 hb
  have hy : y = ix2 (n0 := 5000) (n1 := 32) (y 0) (y 1) := eq_ix2 (n0 := 5000) (n1 := 32) y
  refine (congrArg (k1_pay1 (F := Ideal) x0 x1 w0 w1 b) hy).trans ((pay_entry x0 x1 w0 w1 b (y 0) (y 1)).trans ?_)
  show Cert.SageLayer.entry x0 x1 w0 w1 b (y 0) (y 1) = Cert.SageLayer.entry A X w0 w1 b (i 0) (i 1)
  rw [Cert.SageLayer.entry_congr_rows x0 x1 A X w0 w1 b (y 0) (i 0) h0 h1 (y 1),
    show (y 1 : Fin 32) = i 1 from Fin.ext hq]

/-- The printed index maps over the grid: the row blocks and the output block sit at block row t, column block 0; the
    matrices and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT BLOCK t WRITES BACK is block t of the layer of the arrays as the call finds them. -/
theorem flushed (c : Dev nD) (t : Fin cfg1.N) :
    (dat1 V c).flushed 5 t = ((cfg1.win 5).blk t).view.read (Elt Ideal)
      (Cert.SageLayer.linear (V c main_v38) (V c main_v26) (V c main_arg5) (V c main_arg7) (V c main_v39)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x32) hz, View.ld_unit_zero (S := S1x32) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 4 t) (iblk1 V c 3 t) j
    = Cert.SageLayer.linear (V c main_v38) (V c main_v26) (V c main_arg5) (V c main_arg7) (V c main_v39) (((cfg1.win 5).blk t).view.emb j)
  refine point (iblk1 V c 0 t) (iblk1 V c 1 t) (iblk1 V c 2 t) (iblk1 V c 4 t) (iblk1 V c 3 t)
    (V c main_v38) (V c main_v26) (V c main_arg5) (V c main_arg7) (V c main_v39) j (((cfg1.win 5).blk t).view.emb j)
    (fun k => ?_) (fun k => ?_) ?_ ?_ ?_ ?_
  · show V c main_v38 (((cfg1.win 0).blk t).view.emb (ix2 (j 0) k)) = V c main_v38 (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * k.val = k.val; omega
  · show V c main_v26 (((cfg1.win 1).blk t).view.emb (ix2 (j 0) k)) = V c main_v26 (ix2 ((((cfg1.win 5).blk t).view.emb j) 0) k)
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 64 + 1 * k.val = k.val; omega
  · funext y
    show V c main_arg5 (((cfg1.win 2).blk t).view.emb y) = V c main_arg5 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 32 + 1 * (y 1).val = (y 1).val; omega
  · funext y
    show V c main_arg7 (((cfg1.win 4).blk t).view.emb y) = V c main_arg7 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 32 + 1 * (y 1).val = (y 1).val; omega
  · funext y
    show V c main_v39 (((cfg1.win 3).blk t).view.emb y) = V c main_v39 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 32 + 1 * (y 1).val = (y 1).val; omega
  · show (j 1).val = win1_5.index t (1 : Fin 2) * 32 + 1 * (j 1).val
    omega

/-- An index of the output array lies in block t iff each coordinate lies in the block's range on its axis. -/
theorem mem_blk (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v40).slice (win1_5.rect t)).set ↔ _
  rw [View.set_slice_whole, Rect.mem_set_unit]
  exact Iff.rfl

/-- Every index of the output array lies in the block of its row's block number. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : grid1.N = 20 := N_1
  have ht : (i 0).val / 5000 < cfg1.N := by show _ < grid1.N; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 32 ≤ (i 1).val
      ∧ (i 1).val < win1_5.index ⟨(i 0).val / 5000, ht⟩ (1 : Fin 2) * 32 + 32
    rw [e51]
    omega

/-- THE OUTPUT ARRAY AFTER THE CALL: the layer of the arrays the call was entered with. -/
theorem final (c : Dev nD) :
    (dat1 V c).arrAt 5 cfg1.N
      = Cert.SageLayer.linear (V c main_v38) (V c main_v26) (V c main_arg5) (V c main_arg7) (V c main_v39) :=
  (dat1 V c).arrAt_eq_of_cover 5 _ (fun t _ => flushed V c t) cover

end Cert.KernelIdeal.Layer2

end
-- ==== Proof.KHost.lean ====
/-
  THE ARRAY OPERATIONS AROUND THE TWO TILED LAYERS.

  From the edge list (row 0 the sources, row 1 the destinations) the program forms, once, the in-degree of every node
  (ones accumulated at the destinations), raises it to at least one, and keeps the reciprocal as a column.  Before each
  tiled layer it gathers the current features' rows at the sources (a negative source wrapped by the node count),
  accumulates them at the destinations into a zero table, and multiplies by the reciprocal column repeated along the
  rows: the mean of the in-neighbours' features.  The bias vector is reshaped to a 1 x width row.

  Here each buffer a tiled layer is entered with is read back as that composite of the launch contents: the first
  layer's directly, the second's through the first layer's output array, which the operations between the layers read
  but do not write, as they do not write the edge list's pieces and the reciprocal column computed before the first
  layer.
-/
import proofs.«107614_j32787780338275_1_alg».proof.Proof.Gen.KernelIdeal.Frame
import Idealize.ShloMosaic.Lib.StableHlo.Run
import Idealize.ShloMosaic.PureOps.Ideal

set_option maxRecDepth 16384

noncomputable section

namespace Cert.KernelIdeal.Around

open Cert.KernelIdeal Cert.KernelIdeal.Gen
open Idealize.ShloMosaic Idealize.ShloMosaic.TcCoe Idealize.SL.Sem Idealize.ShloMosaic.StableHlo

/-! ## The composites, as functions of the edge list and a feature array -/

/-- Row 0 of the edge list as a flat vector: the sources. -/
def srcFlat (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- Row 1 of the edge list as a flat vector: the destinations. -/
def dstFlat (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The destinations as the index column of an accumulation. -/
def dstCol (ei : (⟨S2x1600000, .i32⟩ : BufTy).Contents (Elt Ideal)) : (⟨S1600000x1, .i32⟩ : BufTy).Contents (Elt Ideal) :=
  broadcastInDim S1600000x1 ![0] bcast_S1600000_S1600000x1_0 (dstFlat ei)

/-- The sources, a negative one wrapped by the node count, as the index column of a row gather. -/
def srcCol (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcFlat ei) (broadcastInDim S1600000 ![] bcast_S_S1600000 (constantI S_ 32 0#32)))
      (addi (srcFlat ei) (broadcastInDim S1600000 ![] bcast_S_S1600000 (constantI S_ 32 100000#32))) (srcFlat ei))

/-- The in-degree of every node, raised to at least one. -/
def count (ei : (⟨S2x1600000, .i32⟩ : BufTy).Contents (Elt Ideal)) : FVec Ideal S100000 .f32 :=
  maximumf (F := Ideal) (Host.scatterAdd (F := Ideal) scatter_S100000_S1600000x1_S1600000_n_0_0_1
      (broadcastInDim S100000 ![] bcast_S_S100000 (constant (F := Ideal) S_ .f32 0x00000000#32)) (dstCol ei)
      (broadcastInDim S1600000 ![] bcast_S_S1600000 (constant (F := Ideal) S_ .f32 0x3F800000#32)))
    (broadcastInDim S100000 ![] bcast_S_S100000 (constant (F := Ideal) S_ .f32 0x3F800000#32))

/-- Its reciprocal, as a column. -/
def recipCol (ei : (⟨S2x1600000, .i32⟩ : BufTy).Contents (Elt Ideal)) : FVec Ideal S100000x1 .f32 :=
  shapeCast _ (Host.divf (F := Ideal) (broadcastInDim S100000 ![] bcast_S_S100000 (constant (F := Ideal) S_ .f32 0x3F800000#32)) (count ei))
    shapeCasts_S100000_S100000x1

/-- The in-neighbours' input features, summed. -/
def agg9 (x : FVec Ideal S100000x9 .f32) (ei : (⟨S2x1600000, .i32⟩ : BufTy).Contents (Elt Ideal)) :
    FVec Ideal S100000x9 .f32 :=
  Host.scatterAdd (F := Ideal) scatter_S100000x9_S1600000x1_S1600000x9_1_0_0_1
    (broadcastInDim S100000x9 ![] bcast_S_S100000x9 (constant (F := Ideal) S_ .f32 0x00000000#32)) (dstCol ei)
    (Host.gather gather_S100000x9_S1600000x1_S1600000x9_1_0_n_n_0_1_19 x (srcCol ei))

/-- The in-neighbours' hidden features, summed. -/
def agg64 (h : FVec Ideal S100000x64 .f32) (ei : (⟨S2x1600000, .i32⟩ : BufTy).Contents (Elt Ideal)) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstCol ei)
    (Host.gather gather_S100000x64_S1600000x1_S1600000x64_1_0_n_n_0_1_164 h (srcCol ei))

/-- The mean of the in-neighbours' input features, as the program forms it. -/
def mean9 (x : FVec Ideal S100000x9 .f32) (ei : (⟨S2x1600000, .i32⟩ : BufTy).Contents (Elt Ideal)) :
    FVec Ideal S100000x9 .f32 :=
  mulf (F := Ideal) (agg9 x ei) (broadcastInDim S100000x9 ![0, 1] bcast_S100000x1_S100000x9_0_1 (recipCol ei))

/-- The mean of the in-neighbours' hidden features, as the program forms it. -/
def mean64 (h : FVec Ideal S100000x64 .f32) (ei : (⟨S2x1600000, .i32⟩ : BufTy).Contents (Elt Ideal)) :
    FVec Ideal S100000x64 .f32 :=
  mulf (F := Ideal) (agg64 h ei) (broadcastInDim S100000x64 ![0, 1] bcast_S100000x1_S100000x64_0_1 (recipCol ei))

variable (m : (ℓ : Loc nD τ sig) → Buf (Elt Ideal) ℓ) (ρ : Dev nD → PrngReg)

/-! ## The first layer's entry contents -/

theorem V1_mean (c : Dev nD) :
    V1 m ρ c main_v24 = mean9 (m ((c : Thread nD τ).loc main_arg0)) (m ((c : Thread nD τ).loc main_arg1)) := by
  show StableHlo.after (hostOps0 (F := Ideal)) (W0 m ρ c) (Proc.devRef .tc main_v24) = _
  dsimp only [hostOps0]
  after_results_simp <;> rfl

theorem V1_bias (c : Dev nD) :
    V1 m ρ c main_v25 = shapeCast S1x64 (m ((c : Thread nD τ).loc main_arg3)) shapeCasts_S64_S1x64 := by
  show StableHlo.after (hostOps0 (F := Ideal)) (W0 m ρ c) (Proc.devRef .tc main_v25) = _
  dsimp only [hostOps0]
  after_results_simp <;> rfl

theorem V1_arg0 (c : Dev nD) : V1 m ρ c main_arg0 = m ((c : Thread nD τ).loc main_arg0) := by
  show StableHlo.after (hostOps0 (F := Ideal)) (W0 m ρ c) (Proc.devRef .tc main_arg0) = _
  dsimp only [hostOps0]
  after_results_simp <;> rfl

theorem V1_arg2 (c : Dev nD) : V1 m ρ c main_arg2 = m ((c : Thread nD τ).loc main_arg2) := by
  show StableHlo.after (hostOps0 (F := Ideal)) (W0 m ρ c) (Proc.devRef .tc main_arg2) = _
  dsimp only [hostOps0]
  after_results_simp <;> rfl

theorem V1_arg4 (c : Dev nD) : V1 m ρ c main_arg4 = m ((c : Thread nD τ).loc main_arg4) := by
  show StableHlo.after (hostOps0 (F := Ideal)) (W0 m ρ c) (Proc.devRef .tc main_arg4) = _
  dsimp only [hostOps0]
  after_results_simp <;> rfl

/-! ## What the operations between the layers read of the first stretch -/

theorem W1_src (c : Dev nD) : W1 m ρ c (Proc.devRef .tc main_v1) = srcFlat (m ((c : Thread nD τ).loc main_arg1)) := by
  show StableHlo.after (hostOps0 (F := Ideal)) (W0 m ρ c) (Proc.devRef .tc main_v1) = _
  dsimp only [hostOps0]
  after_results_simp <;> rfl

theorem W1_dst (c : Dev nD) : W1 m ρ c (Proc.devRef .tc main_v3) = dstFlat (m ((c : Thread nD τ).loc main_arg1)) := by
  show StableHlo.after (hostOps0 (F := Ideal)) (W0 m ρ c) (Proc.devRef .tc main_v3) = _
  dsimp only [hostOps0]
  after_results_simp <;> rfl

theorem W1_recip (c : Dev nD) : W1 m ρ c (Proc.devRef .tc main_v12) = recipCol (m ((c : Thread nD τ).loc main_arg1)) := by
  show StableHlo.after (hostOps0 (F := Ideal)) (W0 m ρ c) (Proc.devRef .tc main_v12) = _
  dsimp only [hostOps0]
  after_results_simp <;> rfl

theorem W1_arg5 (c : Dev nD) : W1 m ρ c (Proc.devRef .tc main_arg5) = m ((c : Thread nD τ).loc main_arg5) := by
  show StableHlo.after (hostOps0 (F := Ideal)) (W0 m ρ c) (Proc.devRef .tc main_arg5) = _
  dsimp only [hostOps0]
  after_results_simp <;> rfl

theorem W1_arg6 (c : Dev nD) : W1 m ρ c (Proc.devRef .tc main_arg6) = m ((c : Thread nD τ).loc main_arg6) := by
  show StableHlo.after (hostOps0 (F := Ideal)) (W0 m ρ c) (Proc.devRef .tc main_arg6) = _
  dsimp only [hostOps0]
  after_results_simp <;> rfl

theorem W1_arg7 (c : Dev nD) : W1 m ρ c (Proc.devRef .tc main_arg7) = m ((c : Thread nD τ).loc main_arg7) := by
  show StableHlo.after (hostOps0 (F := Ideal)) (W0 m ρ c) (Proc.devRef .tc main_arg7) = _
  dsimp only [hostOps0]
  after_results_simp <;> rfl

/-! ## The second layer's entry contents, over the first layer's output array -/

theorem V3_mean (c : Dev nD) :
    V3 m ρ c main_v38 = mean64 (W2 m ρ c (Proc.devRef .tc main_v26)) (m ((c : Thread nD τ).loc main_arg1)) := by
  show StableHlo.after (hostOps1 (F := Ideal)) (W2 m ρ c) (Proc.devRef .tc main_v38) = _
  dsimp only [hostOps1]
  after_results_simp
  rw [W2_of_ne m ρ c main_v1 (by decide), W2_of_ne m ρ c main_v3 (by decide), W2_of_ne m ρ c main_v12 (by decide),
    W1_src, W1_dst, W1_recip]
  rfl

theorem V3_hidden (c : Dev nD) : V3 m ρ c main_v26 = W2 m ρ c (Proc.devRef .tc main_v26) := by
  show StableHlo.after (hostOps1 (F := Ideal)) (W2 m ρ c) (Proc.devRef .tc main_v26) = _
  dsimp only [hostOps1]
  after_results_simp

theorem V3_bias (c : Dev nD) :
    V3 m ρ c main_v39 = shapeCast S1x32 (m ((c : Thread nD τ).loc main_arg6)) shapeCasts_S32_S1x32 := by
  show StableHlo.after (hostOps1 (F := Ideal)) (W2 m ρ c) (Proc.devRef .tc main_v39) = _
  dsimp only [hostOps1]
  after_results_simp
  rw [W2_of_ne m ρ c main_arg6 (by decide), W1_arg6]
  rfl

theorem V3_arg5 (c : Dev nD) : V3 m ρ c main_arg5 = m ((c : Thread nD τ).loc main_arg5) := by
  show StableHlo.after (hostOps1 (F := Ideal)) (W2 m ρ c) (Proc.devRef .tc main_arg5) = _
  dsimp only [hostOps1]
  after_results_simp
  rw [W2_of_ne m ρ c main_arg5 (by decide), W1_arg5]

theorem V3_arg7 (c : Dev nD) : V3 m ρ c main_arg7 = m ((c : Thread nD τ).loc main_arg7) := by
  show StableHlo.after (hostOps1 (F := Ideal)) (W2 m ρ c) (Proc.devRef .tc main_arg7) = _
  dsimp only [hostOps1]
  after_results_simp
  rw [W2_of_ne m ρ c main_arg7 (by decide), W1_arg7]

end Cert.KernelIdeal.Around

end
-- ==== Proof.RefTerm.lean ====
/-
  THE ARRAY PROGRAM'S RESULT, NAMED BY ITS PARTS.

  The array program computes each layer whole: the in-neighbours' features gathered at the sources and accumulated at
  the destinations, divided entry by entry by the in-degree (raised to at least one, made a column and repeated along
  the rows); times the first weight matrix; plus the bias (made a row and repeated down the rows); plus the features
  times the second weight matrix; and, after the first layer only, the rectifier max(·, 0).  Its run ends with the
  result array at the second layer of the first layer's output.
-/
import proofs.«107614_j32787780338275_1_alg».proof.Proof.Gen.ReferenceIdeal.Run
import Idealize.ShloMosaic.PureOps.Ideal

set_option maxRecDepth 16384

noncomputable section

namespace Cert.ReferenceIdeal.Whole

open Cert.ReferenceIdeal Cert.ReferenceIdeal.Gen
open Idealize.ShloMosaic Idealize.ShloMosaic.TcCoe Idealize.SL.Sem

/-- Row 0 of the edge list as a flat vector: the sources. -/
def srcFlat (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- Row 1 of the edge list as a flat vector: the destinations. -/
def dstFlat (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The destinations as the index column of an accumulation. -/
def dstCol (ei : (⟨S2x1600000, .i32⟩ : BufTy).Contents (Elt Ideal)) : (⟨S1600000x1, .i32⟩ : BufTy).Contents (Elt Ideal) :=
  broadcastInDim S1600000x1 ![0] bcast_S1600000_S1600000x1_0 (dstFlat ei)

/-- The sources, a negative one wrapped by the node count, as the index column of a row gather. -/
def srcCol (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcFlat ei) (broadcastInDim S1600000 ![] bcast_S_S1600000 (constantI S_ 32 0#32)))
      (addi (srcFlat ei) (broadcastInDim S1600000 ![] bcast_S_S1600000 (constantI S_ 32 100000#32))) (srcFlat ei))

/-- The in-degree of every node, raised to at least one. -/
def count (ei : (⟨S2x1600000, .i32⟩ : BufTy).Contents (Elt Ideal)) : FVec Ideal S100000 .f32 :=
  maximumf (F := Ideal) (Host.scatterAdd (F := Ideal) scatter_S100000_S1600000x1_S1600000_n_0_0_1
      (broadcastInDim S100000 ![] bcast_S_S100000 (constant (F := Ideal) S_ .f32 0x00000000#32)) (dstCol ei)
      (broadcastInDim S1600000 ![] bcast_S_S1600000 (constant (F := Ideal) S_ .f32 0x3F800000#32)))
    (broadcastInDim S100000 ![] bcast_S_S100000 (constant (F := Ideal) S_ .f32 0x3F800000#32))

/-- The in-neighbours' input features, summed. -/
def agg9 (x : FVec Ideal S100000x9 .f32) (ei : (⟨S2x1600000, .i32⟩ : BufTy).Contents (Elt Ideal)) :
    FVec Ideal S100000x9 .f32 :=
  Host.scatterAdd (F := Ideal) scatter_S100000x9_S1600000x1_S1600000x9_1_0_0_1
    (broadcastInDim S100000x9 ![] bcast_S_S100000x9 (constant (F := Ideal) S_ .f32 0x00000000#32)) (dstCol ei)
    (Host.gather gather_S100000x9_S1600000x1_S1600000x9_1_0_n_n_0_1_19 x (srcCol ei))

/-- The in-neighbours' hidden features, summed. -/
def agg64 (h : FVec Ideal S100000x64 .f32) (ei : (⟨S2x1600000, .i32⟩ : BufTy).Contents (Elt Ideal)) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstCol ei)
    (Host.gather gather_S100000x64_S1600000x1_S1600000x64_1_0_n_n_0_1_164 h (srcCol ei))

/-- The first layer, with rectifier. -/
def layer1 (x : FVec Ideal S100000x9 .f32) (ei : (⟨S2x1600000, .i32⟩ : BufTy).Contents (Elt Ideal))
    (wl : FVec Ideal S9x64 .f32) (b : FVec Ideal S64 .f32)
    (wr : FVec Ideal S9x64 .f32) : FVec Ideal S100000x64 .f32 :=
  maximumf (F := Ideal) (addf (F := Ideal) (addf (F := Ideal) (Host.dotGeneral (F := Ideal) dot_S100000x9_S9x64_S100000x64_1_0_0_1_n_n none
          (Host.divf (F := Ideal) (agg9 x ei) (broadcastInDim S100000x9 ![0, 1] bcast_S100000x1_S100000x9_0_1
            (broadcastInDim S100000x1 ![0] bcast_S100000_S100000x1_0 (count ei)))) wl)
        (broadcastInDim S100000x64 ![0, 1] bcast_S1x64_S100000x64_0_1 (broadcastInDim S1x64 ![1] bcast_S64_S1x64_1 b)))
      (Host.dotGeneral (F := Ideal) dot_S100000x9_S9x64_S100000x64_1_0_0_1_n_n none x wr))
    (broadcastInDim S100000x64 ![] bcast_S_S100000x64 (constant (F := Ideal) S_ .f32 0x00000000#32))

/-- The second layer, without rectifier. -/
def layer2 (h : FVec Ideal S100000x64 .f32) (ei : (⟨S2x1600000, .i32⟩ : BufTy).Contents (Elt Ideal))
    (wl : FVec Ideal S64x32 .f32) (b : FVec Ideal S32 .f32)
    (wr : FVec Ideal S64x32 .f32) : FVec Ideal S100000x32 .f32 :=
  addf (F := Ideal) (addf (F := Ideal) (Host.dotGeneral (F := Ideal) dot_S100000x64_S64x32_S100000x32_1_0_0_1_n_n none
        (Host.divf (F := Ideal) (agg64 h ei) (broadcastInDim S100000x64 ![0, 1] bcast_S100000x1_S100000x64_0_1
          (broadcastInDim S100000x1 ![0] bcast_S100000_S100000x1_0 (count ei)))) wl)
      (broadcastInDim S100000x32 ![0, 1] bcast_S1x32_S100000x32_0_1 (broadcastInDim S1x32 ![1] bcast_S32_S1x32_1 b)))
    (Host.dotGeneral (F := Ideal) dot_S100000x64_S64x32_S100000x32_1_0_0_1_n_n none h wr)

/-- The run's result term is the second layer of the first layer's output, of the launch contents. -/
theorem res_eq (m : (ℓ : Loc nD τ sig) → Buf (Elt Ideal) ℓ) (c : Dev nD) :
    Cert.ReferenceIdeal.Value.res_out0 (F := Ideal) m c
      = layer2 (layer1 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          (m ((c.tc : Thread nD τ).loc main_arg1)) (m ((c.tc : Thread nD τ).loc main_arg5))
          (m ((c.tc : Thread nD τ).loc main_arg6)) (m ((c.tc : Thread nD τ).loc main_arg7)) := by
  unfold Cert.ReferenceIdeal.Value.res_out0 Cert.ReferenceIdeal.Value.res_main_v58
  rfl

end Cert.ReferenceIdeal.Whole

end
-- ==== Proof.lean ====
/-
  A TWO-LAYER GRAPH CONVOLUTION WITH MEAN AGGREGATION: THE TILED PROGRAM AGAINST THE ARRAY PROGRAM, OVER THE EXTENDED REALS.

  Both programs compute, for 100000 nodes and 1600000 edges,

      h = max(mean(x) · W1l + x · W1r + b1, 0),      z = mean(h) · W2l + h · W2r + b2,

  where mean(f)(i, ·) is the sum of f over the in-neighbours of node i divided by max(in-degree(i), 1).  The gathers and
  the accumulations are the same array operations in both.  They differ in three places, none of which changes a value
  on the extended reals:

  * the tiled program multiplies the summed features by the reciprocal 1 / max(deg, 1), the array program divides by
    max(deg, 1).  The in-degree is a finite sum of ones, so max(deg, 1) is a positive real d, and a / d = a · (1 / d) for
    every extended real a;
  * the tiled program adds the two matrix products first and the bias last, the array program adds the bias between
    them: addition on the extended reals is commutative and associative;
  * the tiled program narrows the operands of its products to a shorter float format, which is the identity here, and
    computes each layer in 20 blocks of 5000 rows; a layer's row depends only on that node's rows, so the blocks, which
    cover every row, assemble to the layer of the whole arrays.

  No distributive law is used, so the finiteness of the inputs is not needed for the values.

  The parts: LibSageLayer (one layer in the two arrangements, and their equality), KLayer1 / KLayer2 (each tiled call's
  output array as the layer of its entry arrays), KHost (the array operations around the tiled calls), KernelRun (the
  run with the result array named), RefTerm (the array program's result by its parts).
-/
import proofs.«107614_j32787780338275_1_alg».proof.Defs
import proofs.«107614_j32787780338275_1_alg».proof.Proof.Gen.Kernel
import proofs.«107614_j32787780338275_1_alg».proof.Proof.Gen.Kernel.Skeleton
import proofs.«107614_j32787780338275_1_alg».proof.Proof.Gen.Kernel.Launch
import proofs.«107614_j32787780338275_1_alg».proof.Proof.Gen.Kernel.Points
import proofs.«107614_j32787780338275_1_alg».proof.Proof.Gen.Kernel.Frame
import proofs.«107614_j32787780338275_1_alg».proof.Proof.Gen.KernelIdeal
import proofs.«107614_j32787780338275_1_alg».proof.Proof.Gen.KernelIdeal.Skeleton
import proofs.«107614_j32787780338275_1_alg».proof.Proof.Gen.KernelIdeal.Launch
import proofs.«107614_j32787780338275_1_alg».proof.Proof.Gen.KernelIdeal.Points
import proofs.«107614_j32787780338275_1_alg».proof.Proof.Gen.KernelIdeal.Frame
import proofs.«107614_j32787780338275_1_alg».proof.Proof.Gen.ReferenceIdeal
import proofs.«107614_j32787780338275_1_alg».proof.Proof.Gen.Pre_finite_inputs
import proofs.«107614_j32787780338275_1_alg».proof.Proof.Gen.ReferenceIdeal.Run
import proofs.«107614_j32787780338275_1_alg».proof.Proof.LibSageLayer
import proofs.«107614_j32787780338275_1_alg».proof.Proof.KernelRun
import proofs.«107614_j32787780338275_1_alg».proof.Proof.KLayer1
import proofs.«107614_j32787780338275_1_alg».proof.Proof.KLayer2
import proofs.«107614_j32787780338275_1_alg».proof.Proof.KHost
import proofs.«107614_j32787780338275_1_alg».proof.Proof.RefTerm
import Idealize.ShloMosaic.Adequacy
import Idealize.ShloMosaic.Init

set_option maxRecDepth 16384

noncomputable section

namespace Cert.Proof

open Idealize.ShloMosaic Idealize.ShloMosaic.TcCoe Idealize.SL.Sem Cert.LibReal

/-! ## The two arrangements of each layer, on the programs' own arrays -/

section Bridge

open Cert.KernelIdeal Cert.KernelIdeal.Gen Cert.KernelIdeal.Around

/-- The in-degree raised to at least one is a positive real at every node: a finite sum of ones, then the maximum
    with one. -/
theorem count_nonzero (ei : (⟨S2x1600000, .i32⟩ : BufTy).Contents (Elt Ideal)) : AllNonzero (count ei) :=
  (maximumf_allPos_right
    (scatterAdd_allReal _ _ (broadcastInDim_allReal _ _ (constant_allReal _ _ _ ofBits_zero))
      (broadcastInDim_allReal _ _ (constant_allReal _ _ _ ofBits_one)))
    (broadcastInDim_allPos _ _ (constant_allPos _ _ _ one_pos ofBits_one))).allNonzero

/-- The first layer: the tiled arrangement over the mean formed with the reciprocal column is the array program's. -/
theorem layer1_eq (x : FVec Ideal S100000x9 .f32) (ei : (⟨S2x1600000, .i32⟩ : BufTy).Contents (Elt Ideal))
    (wl : FVec Ideal S9x64 .f32) (b : FVec Ideal S64 .f32)
    (wr : FVec Ideal S9x64 .f32) :
    Cert.SageLayer.hidden (mean9 x ei) x wl wr (shapeCast S1x64 b shapeCasts_S64_S1x64)
      = Cert.ReferenceIdeal.Whole.layer1 x ei wl b wr :=
  Cert.SageLayer.hidden_eq_ref (N := 100000) (K := 9) (M := 64)
    Cert.ReferenceIdeal.dot_S100000x9_S9x64_S100000x64_1_0_0_1_n_n rfl (agg9 x ei) x (count ei) (count_nonzero ei) wl wr b
    bcast_S100000x1_S100000x9_0_1 Cert.ReferenceIdeal.Gen.bcast_S100000_S100000x1_0
    Cert.ReferenceIdeal.Gen.bcast_S1x64_S100000x64_0_1 Cert.ReferenceIdeal.Gen.bcast_S64_S1x64_1
    shapeCasts_S100000_S100000x1 shapeCasts_S64_S1x64 bcast_S_S100000 Cert.ReferenceIdeal.Gen.bcast_S_S100000x64

/-- The second layer: likewise, without rectifier. -/
theorem layer2_eq (h : FVec Ideal S100000x64 .f32) (ei : (⟨S2x1600000, .i32⟩ : BufTy).Contents (Elt Ideal))
    (wl : FVec Ideal S64x32 .f32) (b : FVec Ideal S32 .f32)
    (wr : FVec Ideal S64x32 .f32) :
    Cert.SageLayer.linear (mean64 h ei) h wl wr (shapeCast S1x32 b shapeCasts_S32_S1x32)
      = Cert.ReferenceIdeal.Whole.layer2 h ei wl b wr :=
  Cert.SageLayer.linear_eq_ref (N := 100000) (K := 64) (M := 32)
    Cert.ReferenceIdeal.dot_S100000x64_S64x32_S100000x32_1_0_0_1_n_n rfl (agg64 h ei) h (count ei) (count_nonzero ei) wl wr b
    bcast_S100000x1_S100000x64_0_1 Cert.ReferenceIdeal.Gen.bcast_S100000_S100000x1_0
    Cert.ReferenceIdeal.Gen.bcast_S1x32_S100000x32_0_1 Cert.ReferenceIdeal.Gen.bcast_S32_S1x32_1
    shapeCasts_S100000_S100000x1 shapeCasts_S32_S1x32 bcast_S_S100000

variable (m : (ℓ : Loc nD τ sig) → Buf (Elt Ideal) ℓ) (ρ : Dev nD → PrngReg)

/-- After the first tiled call its output array holds the array program's first layer of the launch contents. -/
theorem hidden_array (c : Dev nD) :
    W2 m ρ c (Proc.devRef .tc main_v26)
      = Cert.ReferenceIdeal.Whole.layer1 (m ((c : Thread nD τ).loc main_arg0)) (m ((c : Thread nD τ).loc main_arg1))
          (m ((c : Thread nD τ).loc main_arg2)) (m ((c : Thread nD τ).loc main_arg3)) (m ((c : Thread nD τ).loc main_arg4)) := by
  refine (W2_arr m ρ c 5).trans ?_
  rw [Cert.KernelIdeal.Layer1.final (V1 m ρ) c, V1_mean, V1_arg0, V1_arg2, V1_arg4, V1_bias]
  exact layer1_eq _ _ _ _ _

/-- After the second tiled call the result array holds the array program's second layer of that. -/
theorem result_array (c : Dev nD) :
    W4 m ρ c (Proc.devRef .tc main_v40)
      = Cert.ReferenceIdeal.Whole.layer2
          (Cert.ReferenceIdeal.Whole.layer1 (m ((c : Thread nD τ).loc main_arg0)) (m ((c : Thread nD τ).loc main_arg1))
            (m ((c : Thread nD τ).loc main_arg2)) (m ((c : Thread nD τ).loc main_arg3)) (m ((c : Thread nD τ).loc main_arg4)))
          (m ((c : Thread nD τ).loc main_arg1)) (m ((c : Thread nD τ).loc main_arg5))
          (m ((c : Thread nD τ).loc main_arg6)) (m ((c : Thread nD τ).loc main_arg7)) := by
  refine (W4_arr m ρ c 5).trans ?_
  rw [Cert.KernelIdeal.Layer2.final (V3 m ρ) c, V3_mean, V3_hidden, V3_arg5, V3_arg7, V3_bias, hidden_array]
  exact layer2_eq _ _ _ _ _

end Bridge

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the array program's two layers of the (agreeing) launch contents. -/
theorem algebraic : Cert.algebraic_KernelIdeal_ReferenceIdeal := by
  intro m ρ m' ρ' _ hagree
  refine ⟨fun c => Cert.ReferenceIdeal.Whole.layer2
      (Cert.ReferenceIdeal.Whole.layer1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun r h c => ⟨(h c).1.trans (result_array m ρ c), (h c).2⟩)
      (Cert.KernelIdeal.GenP.run_main m ρ)
  · refine (θ_run Cert.ReferenceIdeal.defs _ _).mono (fun r h c => ⟨(h c).1.trans ?_, (h c).2⟩)
      (Cert.ReferenceIdeal.Value.run (F := Ideal) m' ρ')
    refine (Cert.ReferenceIdeal.Whole.res_eq m' c).trans ?_
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
